-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x32 : Shape := ⟨2, ![4096, 32]⟩
abbrev S4096x1 : Shape := ⟨2, ![4096, 1]⟩
abbrev S1x1 : Shape := ⟨2, ![1, 1]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096x1 : S_.BroadcastsInDim S4096x1 (![] : Fin 0 → Fin S4096x1.rank)
  reducesTo_S4096x1_S_d0_1 : S4096x1.ReducesTo [0, 1] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  main_v18

def fn {F : FTy → Type} [FloatOps F] (main_arg0 : FVec F S1024x4096 .f32) (main_arg1 : FVec F S4096x32 .f32) (main_arg2 : FVec F S4096x1 .f32) (main_arg3 : FVec F S1x1 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S1x1 .f32 := Host.absf main_arg3
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_v13 main_v16
-- ==== Kernel.lean ====
abbrev S1024x4096 : Shape := ⟨2, ![1024, 4096]⟩
abbrev S4096x32 : Shape := ⟨2, ![4096, 32]⟩
abbrev S4096x1 : Shape := ⟨2, ![4096, 1]⟩
abbrev S1x1 : Shape := ⟨2, ![1, 1]⟩
abbrev S4096x33 : Shape := ⟨2, ![4096, 33]⟩
abbrev S_ : Shape := ⟨0, ![]⟩
abbrev S4096x128 : Shape := ⟨2, ![4096, 128]⟩
abbrev S1024 : Shape := ⟨1, ![1024]⟩
abbrev S512x1024 : Shape := ⟨2, ![512, 1024]⟩
abbrev S1024x128 : Shape := ⟨2, ![1024, 128]⟩
abbrev S512 : Shape := ⟨1, ![512]⟩
abbrev S512x128 : Shape := ⟨2, ![512, 128]⟩
abbrev S512x32 : Shape := ⟨2, ![512, 32]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S4096x32, .f32⟩
  | .hbm, ⟨2, _⟩ => ⟨S4096x1, .f32⟩
  | .hbm, ⟨3, _⟩ => ⟨S1x1, .f32⟩
  | .hbm, ⟨4, _⟩ => ⟨S4096x33, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S1024x128, .f32⟩
  | .local _ .vmem, ⟨4, _⟩ => ⟨S1x1, .f32⟩
  | .local _ .vmem, ⟨5, _⟩ => ⟨S512, .f32⟩
  | .local _ .vmem, ⟨6, _⟩ => ⟨S512, .f32⟩
  | .local _ .vmem, ⟨7, _⟩ => ⟨S512x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  concatenates_S4096x32_S4096x1_S4096x33_d1 : Shape.Concatenates [S4096x32, S4096x1] S4096x33 1
  pads_S4096x33_S4096x128_000_0950 : S4096x33.Pads (![0, 0] : Fin 2 → Nat) ![0, 95] ![0, 0] S4096x128
  h_S_ : 0 < S_.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S512x128_o0_0_S512x32 : S512x128.Slices ![0, 0] S512x32
  slices_S512x128_o0_32_S512x1 : S512x128.Slices ![0, 32] S512x1
  shapeCasts_S512x1_S512 : S512x1.ShapeCasts S512
  reduces_S512x32_S512 : S512x32.Reduces [1] S512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512_S512_0 : ∀ a, (![0] : Fin 1 → Nat) a + S512.size a ≤ S512.size a
  h_S512 : 0 < S512.numel
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x4096.size a
  hwx0_0 : ∀ i : grid0.Coords, EltTy.bits .f32 = 32 ∨ (Rect.block (s := S1024x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S1024.size a
  hwx0_3 : ∀ i : grid0.Coords, EltTy.bits .f32 = 32 ∨ (Rect.block (s := S1024) S512.size (cc0_transform_3 i) (hinb0_3 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x32 : Shape := ⟨2, ![4096, 32]⟩
abbrev S4096x1 : Shape := ⟨2, ![4096, 1]⟩
abbrev S1x1 : Shape := ⟨2, ![1, 1]⟩
abbrev S1024x4096x1 : Shape := ⟨3, ![1024, 4096, 1]⟩
abbrev S1x4096x32 : Shape := ⟨3, ![1, 4096, 32]⟩
abbrev S1024x4096x32 : Shape := ⟨3, ![1024, 4096, 32]⟩
abbrev S_ : Shape := ⟨0, ![]⟩
abbrev S1024x32 : Shape := ⟨2, ![1024, 32]⟩
abbrev S1024 : Shape := ⟨1, ![1024]⟩
abbrev S4096 : Shape := ⟨1, ![4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x32, .f32⟩
  | .hbm, ⟨2, _⟩ => ⟨S4096x1, .f32⟩
  | .hbm, ⟨3, _⟩ => ⟨S1x1, .f32⟩
  | .hbm, ⟨4, _⟩ => ⟨S1024x4096x1, .f32⟩
  | .hbm, ⟨5, _⟩ => ⟨S1x4096x32, .f32⟩
  | .hbm, ⟨6, _⟩ => ⟨S1024x4096x32, .f32⟩
  | .hbm, ⟨7, _⟩ => ⟨S1024x4096x32, .f32⟩
  | .hbm, ⟨8, _⟩ => ⟨S1024x4096x32, .f32⟩
  | .hbm, ⟨9, _⟩ => ⟨S_, .f32⟩
  | .hbm, ⟨10, _⟩ => ⟨S1024x32, .f32⟩
  | .hbm, ⟨11, _⟩ => ⟨S1024x32, .f32⟩
  | .hbm, ⟨12, _⟩ => ⟨S_, .f32⟩
  | .hbm, ⟨13, _⟩ => ⟨S1024, .f32⟩
  | .hbm, ⟨14, _⟩ => ⟨S4096, .f32⟩
  | .hbm, ⟨15, _⟩ => ⟨S1x4096, .f32⟩
  | .hbm, ⟨16, _⟩ => ⟨S1024x4096, .f32⟩
  | .hbm, ⟨17, _⟩ => ⟨S1024x4096, .f32⟩
  | .hbm, ⟨18, _⟩ => ⟨S_, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S1024x4096_S1024x4096x1_0_1 : S1024x4096.BroadcastsInDim S1024x4096x1 (![0, 1] : Fin 2 → Fin S1024x4096x1.rank)
  bcast_S4096x32_S1x4096x32_1_2 : S4096x32.BroadcastsInDim S1x4096x32 (![1, 2] : Fin 2 → Fin S1x4096x32.rank)
  bcast_S1024x4096x1_S1024x4096x32_0_1_2 : S1024x4096x1.BroadcastsInDim S1024x4096x32 (![0, 1, 2] : Fin 3 → Fin S1024x4096x32.rank)
  bcast_S1x4096x32_S1024x4096x32_0_1_2 : S1x4096x32.BroadcastsInDim S1024x4096x32 (![0, 1, 2] : Fin 3 → Fin S1024x4096x32.rank)
  reducesTo_S1024x4096x32_S1024x32_d1 : S1024x4096x32.ReducesTo [1] S1024x32
  h_S_ : 0 < S_.numel
  reducesTo_S1024x32_S1024_d1 : S1024x32.ReducesTo [1] S1024
  shapeCasts_S4096x1_S4096 : S4096x1.ShapeCasts S4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  reducesTo_S1024x4096_S1024_d1 : S1024x4096.ReducesTo [1] S1024
  shapeCasts_S1x1_S_ : S1x1.ShapeCasts S_
  bcast_S_S1024 : S_.BroadcastsInDim S1024 (![] : Fin 0 → Fin S1024.rank)

variable [Facts₀]

class Facts : Prop extends Facts₀ where

variable [Facts]
-- ==== Proof.Spec.lean ====
/-
  The factorization-machine score as ONE function of the four argument arrays, and the regrouping law that joins a sum
  taken in four blocks of 1024 to the sum taken whole.

  For a batch row `b`, with `x` the data [1024, 4096], `E` the embedding [4096, 32], `β` the bias column [4096, 1] and
  `g` the global bias [1, 1]:

      score b = σ ( (g + ∑_f x[b,f]·β[f]) + ∑_{d<32} (∑_f x[b,f]·E[f,d])² ),

  `σ t = 1 / (1 + e^(-t))` on the extended reals. Both programs compute exactly this, with the additions in this order.
  They differ in how `∑_f` over the 4096 features is taken: whole, or as four partial sums over consecutive blocks of
  1024 features added up from zero. Addition of extended reals is commutative and associative, so the two agree for
  every input; no finiteness is used.
-/
import Idealize.ShloMosaic.PureOps.Ideal
import Idealize.ShloMosaic.PureOps.Ideal.Laws
import Idealize.ShloMosaic.Lib.ValueIdx

noncomputable section

open scoped BigOperators

namespace Cert.FmSpec

open Idealize.ShloMosaic Idealize.ShloMosaic.ValueIdx

/-! ## Feature indices by blocks of 1024 -/

/-- Feature `1024·k + f`: the `f`-th feature of the `k`-th block. -/
def blkIdx (k : Fin 4) (f : Fin 1024) : Fin 4096 := ⟨1024 * k.val + f.val, by omega⟩

@[simp] theorem blkIdx_val (k : Fin 4) (f : Fin 1024) : (blkIdx k f).val = 1024 * k.val + f.val := rfl

/-- Every feature is the `f`-th of the `k`-th block for exactly one `(k, f)`: quotient and remainder by 1024. -/
def blkEquiv : Fin 4 × Fin 1024 ≃ Fin 4096 where
  toFun p := blkIdx p.1 p.2
  invFun f := (⟨f.val / 1024, by omega⟩, ⟨f.val % 1024, by omega⟩)
  left_inv p := by
    rcases p with ⟨k, f⟩
    refine Prod.ext (Fin.ext ?_) (Fin.ext ?_)
    · show (1024 * k.val + f.val) / 1024 = k.val
      omega
    · show (1024 * k.val + f.val) % 1024 = f.val
      omega
  right_inv f := by
    refine Fin.ext ?_
    show 1024 * (f.val / 1024) + f.val % 1024 = f.val
    omega

/-- A sum over the 4096 features is the sum over the four blocks of the sums inside each block. -/
theorem sum_blocks {M : Type*} [AddCommMonoid M] (a : Fin 4096 → M) :
    ∑ f : Fin 4096, a f = ∑ k : Fin 4, ∑ f' : Fin 1024, a (blkIdx k f') := by
  rw [← Equiv.sum_comp blkEquiv a, Fintype.sum_prod_type]
  rfl

/-- Four partial sums added up one after the other from zero are the sum over the four blocks. -/
theorem accumulate_four {M : Type*} [AddCommMonoid M] (p : Fin 4 → M) :
    (((0 + p 0) + p 1) + p 2) + p 3 = ∑ k : Fin 4, p k := by
  rw [Fin.sum_univ_four, zero_add]

/-! ## The score -/

section Score

variable (x : (⟨2, ![1024, 4096]⟩ : Shape).Idx → EReal) (E : (⟨2, ![4096, 32]⟩ : Shape).Idx → EReal)
  (β : (⟨2, ![4096, 1]⟩ : Shape).Idx → EReal) (g : (⟨2, ![1, 1]⟩ : Shape).Idx → EReal)

/-- Row `b` of the data against embedding column `d`: `∑_f x[b,f]·E[f,d]`. -/
def proj (b : Fin 1024) (d : Fin 32) : EReal := ∑ f : Fin 4096, x (ix2 b f) * E (ix2 f d)

/-- Row `b` of the data against the bias column: `∑_f x[b,f]·β[f]`. -/
def lin (b : Fin 1024) : EReal := ∑ f : Fin 4096, x (ix2 b f) * β (ix2 f 0)

/-- The score of row `b`. -/
def score (b : Fin 1024) : EReal :=
  Ideal.logistic ((g (ix2 0 0) + lin x β b) + ∑ d : Fin 32, proj x E b d * proj x E b d)

/-- The result array: the score of every row. -/
def G : (⟨1, ![1024]⟩ : Shape).Idx → EReal := fun i => score x E β g (i 0)

/-- The projection taken block by block. -/
theorem proj_blocks (b : Fin 1024) (d : Fin 32) :
    proj x E b d = ∑ k : Fin 4, ∑ f : Fin 1024, x (ix2 b (blkIdx k f)) * E (ix2 (blkIdx k f) d) :=
  sum_blocks fun f => x (ix2 b f) * E (ix2 f d)

/-- The linear term taken block by block. -/
theorem lin_blocks (b : Fin 1024) :
    lin x β b = ∑ k : Fin 4, ∑ f : Fin 1024, x (ix2 b (blkIdx k f)) * β (ix2 (blkIdx k f) 0) :=
  sum_blocks fun f => x (ix2 b f) * β (ix2 f 0)

end Score

end Cert.FmSpec

end
-- ==== Proof.RefScore.lean ====
/-
  The reference program's result is the score of every row.

  The reference forms `x[b,f]·E[f,d]` on a [1024, 4096, 32] array and sums the feature axis from zero, squares and sums
  the 32 columns from zero, forms `x[b,f]·β[f]` and sums the feature axis from zero, adds `g`, then the linear term,
  then the quadratic term, and applies `1 / (1 + e^(-t))`. Read at row `b`, with `0 + s = s` and the float pattern of
  one denoting the real one, this is `score b` term for term.
-/
import proofs.«154486_j52080773431609_1_alg».proof.Proof.Gen.ReferenceIdeal.Read
import proofs.«154486_j52080773431609_1_alg».proof.Proof.Spec
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Cert.RefScore

open Cert.ReferenceIdeal Cert.ReferenceIdeal.Gen Cert.ReferenceIdeal.Read
open Idealize.ShloMosaic Idealize.ShloMosaic.ValueIdx Cert.FmSpec

/-- The float pattern of `1.0` denotes the real one. -/
theorem one_f32 : Ideal.ofBits .f32 0x3F800000#32 = 1 := IdealRules.sign_bit.ideal_onePat .f32

variable (x : FVec Ideal S1024x4096 .f32) (E : FVec Ideal S4096x32 .f32) (β : FVec Ideal S4096x1 .f32)
  (g : FVec Ideal S1x1 .f32)

/-- The sum over the feature axis of the products `x[b,f]·E[f,d]`, read at `(b, d)`: the projection. -/
theorem proj_read (b : Fin 1024) (d : Fin 32) : val_main_v5 (F := Ideal) x E (ix2 b d) = proj x E b d := by
  rw [val_main_v5_apply]
  show Ideal.ofBits .f32 0x00000000#32 + _ = _
  rw [Ideal.ofBits_zero_f32, zero_add]
  unfold proj
  refine Finset.sum_congr rfl fun f _ => ?_
  rw [val_main_v4_apply, val_main_v2_apply, val_main_v0_apply, val_main_v3_apply, val_main_v1_apply]
  show x _ * E _ = x _ * E _
  have e0 : idx_main_v0 (idx_main_v2 (idx_main_v5 (ix2 b d) f)) = ix2 b f :=
    funext fun a => by match a with | ⟨0, _⟩ => rfl | ⟨1, _⟩ => rfl
  have e1 : idx_main_v1 (idx_main_v3 (idx_main_v5 (ix2 b d) f)) = ix2 f d :=
    funext fun a => by match a with | ⟨0, _⟩ => rfl | ⟨1, _⟩ => rfl
  rw [e0, e1]

/-- The sum over the 32 columns of the squared projections, read at row `b`. -/
theorem quad_read (b : Fin 1024) :
    val_main_v7 (F := Ideal) x E (ix1 b) = ∑ d : Fin 32, proj x E b d * proj x E b d := by
  rw [val_main_v7_apply]
  show Ideal.ofBits .f32 0x00000000#32 + _ = _
  rw [Ideal.ofBits_zero_f32, zero_add]
  refine Finset.sum_congr rfl fun d _ => ?_
  rw [val_main_v6_apply]
  have e : idx_main_v7 (ix1 b) d = ix2 b d := funext fun a => by match a with | ⟨0, _⟩ => rfl | ⟨1, _⟩ => rfl
  rw [e, proj_read]
  rfl

/-- The sum over the feature axis of `x[b,f]·β[f]`, read at row `b`: the linear term. -/
theorem lin_read (b : Fin 1024) : val_main_v12 (F := Ideal) x β (ix1 b) = lin x β b := by
  rw [val_main_v12_apply]
  show Ideal.ofBits .f32 0x00000000#32 + _ = _
  rw [Ideal.ofBits_zero_f32, zero_add]
  unfold lin
  refine Finset.sum_congr rfl fun f _ => ?_
  rw [val_main_v11_apply, val_main_v10_apply, val_main_v9_apply, val_main_v8_apply]
  show x _ * β _ = x _ * β _
  have e0 : idx_main_v12 (ix1 b) f = ix2 b f := funext fun a => by match a with | ⟨0, _⟩ => rfl | ⟨1, _⟩ => rfl
  have e1 : idx_main_v8 (idx_main_v9 (idx_main_v10 (idx_main_v12 (ix1 b) f))) = ix2 f 0 :=
    funext fun a => Fin.ext (by match a with | ⟨0, _⟩ => exact Nat.div_one _ | ⟨1, _⟩ => rfl)
  rw [e0, e1]

/-- The global bias reshaped from [1, 1] to a scalar is its one entry. -/
theorem gbias_read (j : S_.Idx) : val_main_v13 (F := Ideal) g j = g (ix2 0 0) := by
  unfold val_main_v13
  refine shapeCast_apply g shapeCasts_S1x1_S_ j (ix2 0 0) ?_
  have e1 : S1x1.numel = 1 := Shape.numel_eq_one fun a => by match a with | ⟨0, _⟩ => rfl | ⟨1, _⟩ => rfl
  have e0 : S_.numel = 1 := Shape.numel_eq_one fun a => a.elim0
  have h1 := (S1x1.rowMajor (ix2 0 0)).isLt
  have h2 := (S_.rowMajor j).isLt
  omega

/-- The reference's result array is the score of every row. -/
theorem ref_is_score : val_main_v22 (F := Ideal) x E β g = G x E β g := by
  funext i
  obtain ⟨b, rfl⟩ : ∃ b : Fin 1024, i = ix1 b := ⟨i 0, eq_ix1 i⟩
  rw [val_main_v22_apply, val_main_v21_apply, val_main_cst_3_apply, val_main_v20_apply, val_main_v19_apply,
    val_main_cst_2_apply, val_main_v18_apply, val_main_v17_apply, val_main_v16_apply, val_main_v15_apply,
    val_main_v14_apply, gbias_read, quad_read, lin_read]
  show Ideal.div (Ideal.ofBits .f32 0x3F800000#32) (Ideal.ofBits .f32 0x3F800000#32 + Ideal.exp (-((g (ix2 0 0) + lin x β b) + ∑ d : Fin 32, proj x E b d * proj x E b d))) = _
  rw [one_f32]
  rfl

end Cert.RefScore

end
-- ==== Proof.Pieces.lean ====
/-
  What one grid point leaves behind, case by case, as the body's payloads.

  The body keeps a [512, 128] accumulator across the four feature blocks of a row tile. At every point it replaces the
  accumulator `a` by `a + X·W` (`X` the [512, 1024] data block, `W` the [1024, 128] block of the augmented matrix); at
  the first block it first overwrites the accumulator with zeros, so what it leaves is `0 + X·W`; at the last block it
  also emits the 512 scores computed from the accumulator it has just written.
-/
import proofs.«154486_j52080773431609_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A middle block (neither first nor last): the accumulator `a` becomes `a + X·W`. -/
theorem acc_middle (c : Dev nD) (i : grid0.Coords) (a2 : Memref sig .tc .vmem S512x1024 .f32) (h2 : a2.IsWhole)
    (a3 : Memref sig .tc .vmem S1024x128 .f32) (h3 : a3.IsWhole) (a4 : Memref sig .tc .vmem S1x1 .f32) (h4 : a4.IsWhole)
    (a5 : Memref sig .tc .vmem S512 .f32) (h5 : a5.IsWhole) (a6 : Memref sig .tc .vmem S512x128 .f32) (h6 : a6.IsWhole)
    (hc0 : ¬cond0_0 i) (hc1 : ¬cond0_1 i)
    (X : Vec F S512x1024 .f32) (W : Vec F S1024x128 .f32) (gb : Vec F S1x1 .f32) (a : Vec F S512x128 .f32) :
    sout0_B_0 c i a2 h2 a3 h3 a4 h4 a5 h5 a6 h6 hc0 hc1 X W gb a = k0_pay2 X W a := by
  unfold sout0_B_0
  rw [View.read_writes_eq_canon _ _ _ (scover0_B_0 c i a2 h2 a3 h3 a4 h4 a5 h5 a6 h6 hc0 hc1 X W gb a)]
  unfold kernelRun0_B
  dsimp only
  sl_unfold_words
  rw [View.canon_unit_zero hz2]
  simp only [View.readAt_eq_ld, h2.read_unread, h3.read_unread, h6.read_unread, View.ld_unit_zero (S := S512x1024) hz2,
    View.ld_unit_zero (S := S1024x128) hz2, View.ld_unit_zero (S := S512x128) hz2]

/-- The last block: the accumulator `a` becomes `a + X·W` as at a middle block. -/
theorem acc_last (c : Dev nD) (i : grid0.Coords) (a2 : Memref sig .tc .vmem S512x1024 .f32) (h2 : a2.IsWhole)
    (a3 : Memref sig .tc .vmem S1024x128 .f32) (h3 : a3.IsWhole) (a4 : Memref sig .tc .vmem S1x1 .f32) (h4 : a4.IsWhole)
    (a5 : Memref sig .tc .vmem S512 .f32) (h5 : a5.IsWhole) (a6 : Memref sig .tc .vmem S512x128 .f32) (h6 : a6.IsWhole)
    (hc0 : ¬cond0_0 i) (hc1 : cond0_1 i)
    (X : Vec F S512x1024 .f32) (W : Vec F S1024x128 .f32) (gb : Vec F S1x1 .f32) (a : Vec F S512x128 .f32) :
    sout0_C_0 c i a2 h2 a3 h3 a4 h4 a5 h5 a6 h6 hc0 hc1 X W gb a = k0_pay2 X W a := by
  unfold sout0_C_0
  rw [View.read_writes_eq_canon _ _ _ (scover0_C_0 c i a2 h2 a3 h3 a4 h4 a5 h5 a6 h6 hc0 hc1 X W gb a)]
  unfold kernelRun0_C
  dsimp only
  sl_unfold_words
  rw [View.canon_unit_zero hz2]
  simp only [View.readAt_eq_ld, h2.read_unread, h3.read_unread, h6.read_unread, View.ld_unit_zero (S := S512x1024) hz2,
    View.ld_unit_zero (S := S1024x128) hz2, View.ld_unit_zero (S := S512x128) hz2]

/-- The last block also emits the scores, computed from the accumulator it has just written and the global bias. -/
theorem out_last (c : Dev nD) (i : grid0.Coords) (a2 : Memref sig .tc .vmem S512x1024 .f32) (h2 : a2.IsWhole)
    (a3 : Memref sig .tc .vmem S1024x128 .f32) (h3 : a3.IsWhole) (a4 : Memref sig .tc .vmem S1x1 .f32) (h4 : a4.IsWhole)
    (a5 : Memref sig .tc .vmem S512 .f32) (h5 : a5.IsWhole) (a6 : Memref sig .tc .vmem S512x128 .f32) (h6 : a6.IsWhole)
    (hc0 : ¬cond0_0 i) (hc1 : cond0_1 i)
    (X : Vec F S512x1024 .f32) (W : Vec F S1024x128 .f32) (gb : Vec F S1x1 .f32) (a : Vec F S512x128 .f32) :
    out0_C_3 c i a2 h2 a3 h3 a4 h4 a5 h5 a6 h6 hc0 hc1 X W gb a = k0_pay3 (k0_pay2 X W a) gb := by
  unfold out0_C_3
  rw [View.read_writes_eq_canon _ _ _ (cover0_C_3 c i a2 h2 a3 h3 a4 h4 a5 h5 a6 h6 hc0 hc1 X W gb a)]
  unfold kernelRun0_C
  dsimp only
  sl_unfold_words
  rw [View.canon_unit_zero hz1]
  simp only [View.readCov_unit_zero (S := S512x128) _ hz2, View.readAt_eq_ld, h2.read_unread, h3.read_unread,
    h4.read_unread, h6.read_unread, View.ld_unit_zero (S := S512x1024) hz2, View.ld_unit_zero (S := S1024x128) hz2,
    View.ld_unit_zero (S := S512x128) hz2, View.ld_unit_zero (S := S1x1) hz2]

/-- The first block: the accumulator is overwritten with zeros and then updated, so it ends at `0 + X·W` whatever it held. -/
theorem acc_first (c : Dev nD) (i : grid0.Coords) (a2 : Memref sig .tc .vmem S512x1024 .f32) (h2 : a2.IsWhole)
    (a3 : Memref sig .tc .vmem S1024x128 .f32) (h3 : a3.IsWhole) (a4 : Memref sig .tc .vmem S1x1 .f32) (h4 : a4.IsWhole)
    (a5 : Memref sig .tc .vmem S512 .f32) (h5 : a5.IsWhole) (a6 : Memref sig .tc .vmem S512x128 .f32) (h6 : a6.IsWhole)
    (hc0 : cond0_0 i) (hc1 : ¬cond0_1 i)
    (X : Vec F S512x1024 .f32) (W : Vec F S1024x128 .f32) (gb : Vec F S1x1 .f32) :
    sout0_A_0 c i a2 h2 a3 h3 a4 h4 a5 h5 a6 h6 hc0 hc1 X W gb = k0_pay2 X W (k0_pay1 (F := F)) := by
  unfold sout0_A_0
  rw [View.read_writes_eq_canon _ _ _ (scover0_A_0 c i a2 h2 a3 h3 a4 h4 a5 h5 a6 h6 hc0 hc1 X W gb)]
  unfold kernelRun0_A
  dsimp only
  sl_unfold_words
  rw [View.canon_cons_unit_zero (S := S512x128) hz2, View.readCov_unit_zero (S := S512x128) _ hz2]
  simp only [View.readAt_eq_ld, h2.read_unread, h3.read_unread, View.ld_unit_zero (S := S512x1024) hz2,
    View.ld_unit_zero (S := S1024x128) hz2]

end Cert.KernelIdeal.Pieces

end
-- ==== Proof.Payload.lean ====
/-
  The body's three stored values read at one entry, over the extended reals.

  * the reset value is zero everywhere;
  * the updated accumulator at row `r`, column `j` is the old entry plus `∑_{f<1024} X[r,f]·W[f,j]` — the product of the
    data block with the block of the augmented matrix into a zero start, the change of float format the identity;
  * the score of row `r` is `σ((g + A[r,32]) + ∑_{d<32} A[r,d]·A[r,d])` of the accumulator `A`: its first 32 columns are the
    projections, column 32 the linear term.
-/
import proofs.«154486_j52080773431609_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The product's operand indices -/

/-- The left operand's row is the result's row. -/
theorem lhs_row (i : S512x128.Idx) (q : dot_S512x1024_S1024x128_S512x128_1_0_0_1_n_n.contr.Idx) : (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide),
    dif_pos (show (0 : Fin S512x1024.rank) ∈ dot_S512x1024_S1024x128_S512x128_1_0_0_1_n_n.lhsNonContracting by decide)]
  rfl

/-- The left operand's column is the contracted feature. -/
theorem lhs_feat (i : S512x128.Idx) (q : dot_S512x1024_S1024x128_S512x128_1_0_0_1_n_n.contr.Idx) : (dot_S512x1024_S1024x128_S512x128_1_0_0_1_n_n.lhsIdx i q 1).val = (q ⟨0, by decide⟩).val :=
  dot_S512x1024_S1024x128_S512x128_1_0_0_1_n_n.lhsIdx_val_of_single rfl i q

/-- The right operand's row is the contracted feature. -/
theorem rhs_feat (i : S512x128.Idx) (q : dot_S512x1024_S1024x128_S512x128_1_0_0_1_n_n.contr.Idx) : (dot_S512x1024_S1024x128_S512x128_1_0_0_1_n_n.rhsIdx i q 0).val = (q ⟨0, by decide⟩).val :=
  dot_S512x1024_S1024x128_S512x128_1_0_0_1_n_n.rhsIdx_val_of_single rfl i q

/-- The right operand's column is the result's column. -/
theorem rhs_col (i : S512x128.Idx) (q : dot_S512x1024_S1024x128_S512x128_1_0_0_1_n_n.contr.Idx) : (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide),
    dif_pos (show (1 : Fin S1024x128.rank) ∈ dot_S512x1024_S1024x128_S512x128_1_0_0_1_n_n.rhsNonContracting by decide)]
  rfl

/-! ## The three stored values -/

/-- The reset value: zero at every entry. -/
theorem zeros_apply (j : S512x128.Idx) : k0_pay1 (F := Ideal) j = 0 := by
  unfold k0_pay1
  simp only [shapeCast_self]
  exact Ideal.ofBits_zero_f32

/-- The updated accumulator at `(r, j)`: the old entry plus the block's contribution `∑_f X[r,f]·W[f,j]`. -/
theorem update_apply (X : FVec Ideal S512x1024 .f32) (W : FVec Ideal S1024x128 .f32) (a : FVec Ideal S512x128 .f32)
    (r : Fin 512) (j : Fin 128) :
    k0_pay2 (F := Ideal) X W a (ix2 r j) = a (ix2 r j) + ∑ f : Fin 1024, X (ix2 r f) * W (ix2 f j) := by
  unfold k0_pay2
  simp only [shapeCast_self]
  show a (ix2 r j) + FloatOps.matmul dot_S512x1024_S1024x128_S512x128_1_0_0_1_n_n none (truncf .bf16 X bitsLt_bf16_f32) (truncf .bf16 W bitsLt_bf16_f32)
    (constant S512x128 .f32 0x00000000#32) (ix2 r j) = _
  rw [Ideal.matmul_constant_zero_apply, ← Equiv.sum_comp (contrEquiv1 dot_S512x1024_S1024x128_S512x128_1_0_0_1_n_n 1024 rfl rfl).symm]
  refine congrArg (a (ix2 r j) + ·) (Finset.sum_congr rfl fun f _ => ?_)
  have hk := contrEquiv1_symm_val dot_S512x1024_S1024x128_S512x128_1_0_0_1_n_n 1024 rfl rfl f
  have el : dot_S512x1024_S1024x128_S512x128_1_0_0_1_n_n.lhsIdx (ix2 r j) ((contrEquiv1 dot_S512x1024_S1024x128_S512x128_1_0_0_1_n_n 1024 rfl rfl).symm f) = ix2 r f :=
    funext fun b => Fin.ext (by
      match b with
      | ⟨0, _⟩ => exact lhs_row _ _
      | ⟨1, _⟩ => exact (lhs_feat _ _).trans hk)
  have er : dot_S512x1024_S1024x128_S512x128_1_0_0_1_n_n.rhsIdx (ix2 r j) ((contrEquiv1 dot_S512x1024_S1024x128_S512x128_1_0_0_1_n_n 1024 rfl rfl).symm f) = ix2 f j :=
    funext fun b => Fin.ext (by
      match b with
      | ⟨0, _⟩ => exact (rhs_feat _ _).trans hk
      | ⟨1, _⟩ => exact rhs_col _ _)
  rw [el, er]
  rfl

/-- Column `d < 32` of the 128-wide accumulator: the projection on embedding column `d`. -/
def embCol (d : Fin 32) : Fin 128 := ⟨d.val, by omega⟩

/-- Column 32 of the accumulator: the linear term. -/
def biasCol : Fin 128 := ⟨32, by decide⟩

/-- The score of row `r` from the accumulator `A` and the global bias `g`:
    `σ((g + A[r,32]) + ∑_{d<32} A[r,d]·A[r,d])`. -/
theorem score_apply (A : FVec Ideal S512x128 .f32) (g : FVec Ideal S1x1 .f32) (r : Fin 512) :
    k0_pay3 (F := Ideal) A g (ix1 r)
      = Ideal.logistic ((g (ix2 0 0) + A (ix2 r biasCol)) + ∑ d : Fin 32, A (ix2 r (embCol d)) * A (ix2 r (embCol d))) := by
  have hg : extractAt ![0, 0] g inpos_S1x1_p0_0 = g (ix2 0 0) :=
    congrArg g (funext fun a => by match a with | ⟨0, _⟩ => rfl | ⟨1, _⟩ => rfl)
  have hb : shapeCast S512 (extractStridedSlice S512x1 ![0, 32] A slices_S512x128_o0_32_S512x1) shapeCasts_S512x1_S512 (ix1 r)
      = A (ix2 r biasCol) := by
    refine (shapeCast_apply _ shapeCasts_S512x1_S512 (ix1 r) (ix2 r 0) ?_).trans ?_
    · rw [Shape.rowMajor_val_two, Shape.rowMajor_val_one]
      show r.val * 1 + 0 = r.val
      omega
    · exact extractStridedSlice_apply ![0, 32] A slices_S512x128_o0_32_S512x1 (ix2 r 0) (ix2 r biasCol) (fun a => by
        match a with
        | ⟨0, _⟩ => exact (Nat.zero_add _).symm
        | ⟨1, _⟩ => rfl)
  have hs : ∀ d : Fin 32, extractStridedSlice S512x32 ![0, 0] A slices_S512x128_o0_0_S512x32 (ix2 r d) = A (ix2 r (embCol d)) :=
    fun d => extractStridedSlice_apply ![0, 0] A slices_S512x128_o0_0_S512x32 (ix2 r d) (ix2 r (embCol d)) (fun a => by
      match a with
      | ⟨0, _⟩ => exact (Nat.zero_add _).symm
      | ⟨1, _⟩ => exact (Nat.zero_add _).symm)
  have hq : multiReduction .add [1] S512 (mulf (extractStridedSlice S512x32 ![0, 0] A slices_S512x128_o0_0_S512x32)
        (extractStridedSlice S512x32 ![0, 0] A slices_S512x128_o0_0_S512x32)) 0x00000000#32 reduces_S512x32_S512 (.inl rfl) rfl (ix1 r)
      = ∑ d : Fin 32, A (ix2 r (embCol d)) * A (ix2 r (embCol d)) := by
    refine (Ideal.multiReduction_add_single _ 0x00000000#32 reduces_S512x32_S512 _ _ (ix1 r)).trans ?_
    refine Finset.sum_congr rfl fun d _ => ?_
    have e : reduces_S512x32_S512.lift (ix1 r) d = ix2 r d :=
      funext fun a => Fin.ext (by match a with | ⟨0, _⟩ => rfl | ⟨1, _⟩ => rfl)
    rw [e]
    show extractStridedSlice S512x32 ![0, 0] A slices_S512x128_o0_0_S512x32 (ix2 r d)
      * extractStridedSlice S512x32 ![0, 0] A slices_S512x128_o0_0_S512x32 (ix2 r d) = _
    rw [hs d]
  exact congrArg Ideal.logistic (congrArg₂ (· + ·) (congrArg₂ (· + ·) hg hb) hq)

end Cert.KernelIdeal.Payload

end
-- ==== Proof.Arrays.lean ====
/-
  What the kernel region finds, over the extended reals: the augmented matrix, and each window's block at a grid point.

  The host side builds the [4096, 128] matrix `[E | β | 0]`: the embedding's 32 columns, then the bias column, then 95
  columns of zeros. Read at column `d < 32` it is `E[f,d]`; at column 32 it is `β[f]`.
  The grid is 2 row tiles by 4 feature blocks, point `t` being row tile `t / 4`, feature block `t % 4`: the data block at
  `t` is rows `512·(t/4) …`, features `1024·(t%4) …`; the matrix block is features `1024·(t%4) …`, all 128 columns; the
  global bias is read whole.
-/
import proofs.«154486_j52080773431609_1_alg».proof.Proof.Gen.KernelIdeal.Frame
import proofs.«154486_j52080773431609_1_alg».proof.Proof.Payload
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.Arrays

open Cert.KernelIdeal Cert.KernelIdeal.Gen Cert.KernelIdeal.Payload
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The argument arrays, by their literal types -/

abbrev dataArr (c : Dev nD) : FVec Ideal S1024x4096 .f32 := m ((c : Thread nD τ).loc main_arg0)
abbrev embedArr (c : Dev nD) : FVec Ideal S4096x32 .f32 := m ((c : Thread nD τ).loc main_arg1)
abbrev biasArr (c : Dev nD) : FVec Ideal S4096x1 .f32 := m ((c : Thread nD τ).loc main_arg2)
abbrev gbiasArr (c : Dev nD) : FVec Ideal S1x1 .f32 := m ((c : Thread nD τ).loc main_arg3)

/-- The augmented matrix as the region finds it. -/
abbrev augArr (c : Dev nD) : FVec Ideal S4096x128 .f32 := V m c main_v1

/-! ## The augmented matrix -/

/-- The region finds, in the matrix's buffer, the concatenation of the embedding and the bias column padded with the
    converted integer zero to 128 columns. -/
theorem aug_term (c : Dev nD) :
    augArr m c = pad S4096x128 ![0, 0] ![0, 95] ![0, 0]
      (concatenate S4096x33 1 [⟨S4096x32, embedArr m c⟩, ⟨S4096x1, biasArr m c⟩] concatenates_S4096x32_S4096x1_S4096x33_d1)
      (sitofp (F := Ideal) .f32 (constantI S_ 32 0#32)) pads_S4096x33_S4096x128_000_0950 h_S_ := by
  show V m c main_v1 = _
  dsimp only [V]
  simp only [hostOps0, hostOps0_1, List.flatten_cons, List.flatten_nil, List.append_nil, List.cons_append, List.nil_append]
  after_results
  rfl

/-- At an embedding column the matrix holds the embedding. -/
theorem aug_emb (c : Dev nD) (f : Fin 4096) (d : Fin 32) : augArr m c (ix2 f (embCol d)) = embedArr m c (ix2 f d) := by
  rw [aug_term]
  refine (pad_apply_of_inside ![0, 0] ![0, 95] ![0, 0] _ _ pads_S4096x33_S4096x128_000_0950 h_S_ (ix2 f (embCol d))
    (ix2 f (⟨d.val, by omega⟩ : Fin 33)) (fun a => by
      match a with
      | ⟨0, _⟩ => show f.val = 0 + f.val * (0 + 1); omega
      | ⟨1, _⟩ => show d.val = 0 + d.val * (0 + 1); omega)).trans ?_
  exact concatenate_pair_apply_left 1 _ _ concatenates_S4096x32_S4096x1_S4096x33_d1 (ix2 f (⟨d.val, by omega⟩ : Fin 33)) rfl
    (ix2 f d) (fun b => by
      match b with
      | ⟨0, _⟩ => rfl
      | ⟨1, _⟩ => rfl)

/-- At column 32 the matrix holds the bias. -/
theorem aug_bias (c : Dev nD) (f : Fin 4096) : augArr m c (ix2 f biasCol) = biasArr m c (ix2 f 0) := by
  rw [aug_term]
  refine (pad_apply_of_inside ![0, 0] ![0, 95] ![0, 0] _ _ pads_S4096x33_S4096x128_000_0950 h_S_ (ix2 f biasCol)
    (ix2 f (⟨32, by decide⟩ : Fin 33)) (fun a => by
      match a with
      | ⟨0, _⟩ => show f.val = 0 + f.val * (0 + 1); omega
      | ⟨1, _⟩ => rfl)).trans ?_
  exact concatenate_pair_apply_right 1 _ _ concatenates_S4096x32_S4096x1_S4096x33_d1 (ix2 f (⟨32, by decide⟩ : Fin 33)) rfl rfl
    (ix2 f 0) (fun b hb => by
      match b with
      | ⟨0, _⟩ => rfl
      | ⟨1, _⟩ => exact absurd rfl hb) rfl

/-! ## The windows' blocks -/

/-- The printed index maps over the grid: point `t` is row tile `t / 4`, feature block `t % 4`. -/
theorem idx_facts : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 1) = t.val / 4 :=
  (by decide +kernel : ∀ t : Fin grid0.N, _)

/-- Row `r` of the row tile of point `n` (stated for every natural, so that a sum over points needs no bound). -/
def rowAt (n : ℕ) (r : Fin 512) : Fin 1024 := ⟨512 * (n / 4 % 2) + r.val, by omega⟩

/-- Feature `f` of the feature block of point `n`. -/
def featAt (n : ℕ) (f : Fin 1024) : Fin 4096 := ⟨1024 * (n % 4) + f.val, by omega⟩

/-- The data block, the matrix block and the global bias as the body finds them at point `t`. -/
abbrev xblk (c : Dev nD) (t : Fin cfg0.N) : FVec Ideal S512x1024 .f32 := iblk m c 0 t
abbrev wblk (c : Dev nD) (t : Fin cfg0.N) : FVec Ideal S1024x128 .f32 := iblk m c 1 t
abbrev gblk (c : Dev nD) (t : Fin cfg0.N) : FVec Ideal S1x1 .f32 := iblk m c 2 t

theorem xblk_apply (c : Dev nD) (t : Fin cfg0.N) (r : Fin 512) (f : Fin 1024) :
    xblk m c t (ix2 r f) = dataArr m c (ix2 (rowAt t.val r) (featAt t.val f)) := by
  obtain ⟨e0, e1, -⟩ := idx_facts t
  have hN : cfg0.N = 8 := N_0
  have ht := t.isLt
  show V m c main_arg0 (((cfg0.win 0).blk t).view.emb (ix2 r f)) = _
  rw [V_main_arg0]
  refine congrArg (dataArr m c) (funext fun a => Fin.ext ?_)
  match a with
  | ⟨0, _⟩ =>
    show win0_0.index t (0 : Fin 2) * 512 + 1 * r.val = 512 * (t.val / 4 % 2) + r.val
    omega
  | ⟨1, _⟩ =>
    show win0_0.index t (1 : Fin 2) * 1024 + 1 * f.val = 1024 * (t.val % 4) + f.val
    omega

theorem wblk_apply (c : Dev nD) (t : Fin cfg0.N) (f : Fin 1024) (j : Fin 128) :
    wblk m c t (ix2 f j) = augArr m c (ix2 (featAt t.val f) j) := by
  obtain ⟨-, -, e2, e3, -⟩ := idx_facts t
  show V m c main_v1 (((cfg0.win 1).blk t).view.emb (ix2 f j)) = _
  refine congrArg (augArr m c) (funext fun a => Fin.ext ?_)
  match a with
  | ⟨0, _⟩ =>
    show win0_1.index t (0 : Fin 2) * 1024 + 1 * f.val = 1024 * (t.val % 4) + f.val
    omega
  | ⟨1, _⟩ =>
    show win0_1.index t (1 : Fin 2) * 128 + 1 * j.val = j.val
    omega

theorem gblk_apply (c : Dev nD) (t : Fin cfg0.N) : gblk m c t (ix2 0 0) = gbiasArr m c (ix2 0 0) := by
  obtain ⟨-, -, -, -, e4, e5, -⟩ := idx_facts t
  show V m c main_arg3 (((cfg0.win 2).blk t).view.emb (ix2 0 0)) = _
  rw [V_main_arg3]
  refine congrArg (gbiasArr m c) (funext fun a => Fin.ext ?_)
  match a with
  | ⟨0, _⟩ =>
    show win0_2.index t (0 : Fin 2) * 1 + 1 * 0 = 0
    omega
  | ⟨1, _⟩ =>
    show win0_2.index t (1 : Fin 2) * 1 + 1 * 0 = 0
    omega

end Cert.KernelIdeal.Arrays

end
-- ==== Proof.Accumulate.lean ====
/-
  The accumulator after a run of feature blocks.

  Point `n` adds to accumulator entry `(r, j)` its block's contribution
  `∑_{f<1024} x[row n r, feat n f] · aug[feat n f, j]`; the first block of a row tile starts from zero. So after the block
  at offset `s` of a row tile the entry is `0 + ∑_{s' ≤ s}` of the contributions, and after the fourth block its
  embedding columns are the projections `∑_f x[b,f]·E[f,d]` and its column 32 the linear term `∑_f x[b,f]·β[f]` of the
  row `b`, the 4096 features regrouped as four blocks of 1024.
-/
import proofs.«154486_j52080773431609_1_alg».proof.Proof.Gen.KernelIdeal.Value
import proofs.«154486_j52080773431609_1_alg».proof.Proof.Pieces
import proofs.«154486_j52080773431609_1_alg».proof.Proof.Payload
import proofs.«154486_j52080773431609_1_alg».proof.Proof.Arrays
import proofs.«154486_j52080773431609_1_alg».proof.Proof.Spec

noncomputable section

open scoped BigOperators

namespace Cert.KernelIdeal.Accumulate

open Cert.KernelIdeal Cert.KernelIdeal.Gen Cert.KernelIdeal.Value Cert.KernelIdeal.Payload Cert.KernelIdeal.Pieces
open Cert.KernelIdeal.Arrays Cert.FmSpec
open Idealize.ShloMosaic Idealize.ShloMosaic.TcCoe Idealize.SL.Sem Idealize.ShloMosaic.ValueIdx

variable (m : (ℓ : Loc nD τ sig) → Buf (Elt Ideal) ℓ)

/-- What the block of point `n` adds to accumulator entry `i = (r, j)`. -/
def contrib (c : Dev nD) (n : ℕ) (i : S512x128.Idx) : EReal :=
  ∑ f : Fin 1024, dataArr m c (ix2 (rowAt n (i 0)) (featAt n f)) * augArr m c (ix2 (featAt n f) (i 1))

/-- One update at point `t`: the entry plus the point's contribution. -/
theorem step_apply (c : Dev nD) (t : Fin cfg0.N) (a : FVec Ideal S512x128 .f32) (i : S512x128.Idx) :
    k0_pay2 (F := Ideal) (xblk m c t) (wblk m c t) a i = a i + contrib m c t.val i := by
  obtain ⟨r, j, rfl⟩ : ∃ (r : Fin 512) (j : Fin 128), i = ix2 r j := ⟨i 0, i 1, eq_ix2 i⟩
  refine (update_apply (xblk m c t) (wblk m c t) a r j).trans ?_
  refine congrArg (a (ix2 r j) + ·) (Finset.sum_congr rfl fun f _ => ?_)
  exact congrArg₂ (· * ·) (xblk_apply m c t r f) (wblk_apply m c t f j)

/-- The first block of a row tile leaves `0 +` its contribution, whatever the accumulator held. -/
theorem sc_first (c : Dev nD) (n : ℕ) (hb : n < cfg0.N) (h0 : n % 4 = 0) (acc : Vec Ideal S512x128 .f32) (i : S512x128.Idx) :
    scAt0_0 m c n hb acc i = (fun _ => (0 : EReal)) i + contrib m c n i := by
  have h1 : ¬n % 4 = 3 := by omega
  unfold scAt0_0
  rw [dif_pos h0, dif_neg h1]
  refine (congrFun (acc_first (F := Ideal) c (grid0.coords ⟨n, hb⟩) (ms0_0 ⟨n, hb⟩) (hs0_0 ⟨n, hb⟩) (ms0_1 ⟨n, hb⟩) (hs0_1 ⟨n, hb⟩)
    (ms0_2 ⟨n, hb⟩) (hs0_2 ⟨n, hb⟩) (ms0_3 ⟨n, hb⟩) (hs0_3 ⟨n, hb⟩) scM0_0 (Memref.isWhole_whole _)
    ((hcond0_0 ⟨n, hb⟩).mpr h0) (fun h => h1 ((hcond0_1 ⟨n, hb⟩).mp h))
    (xblk m c ⟨n, hb⟩) (wblk m c ⟨n, hb⟩) (gblk m c ⟨n, hb⟩)) i).trans ?_
  refine (step_apply m c ⟨n, hb⟩ (k0_pay1 (F := Ideal)) i).trans ?_
  exact congrArg (· + contrib m c n i) (zeros_apply i)

/-- A later block of the row tile adds its contribution to what the block before left. -/
theorem sc_later (c : Dev nD) (n : ℕ) (hb : n < cfg0.N) (h0 : ¬n % 4 = 0) (acc : Vec Ideal S512x128 .f32) (i : S512x128.Idx) :
    scAt0_0 m c n hb acc i = acc i + contrib m c n i := by
  unfold scAt0_0
  rw [dif_neg h0]
  by_cases h1 : n % 4 = 3
  · rw [dif_pos h1]
    refine (congrFun (acc_last (F := Ideal) c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) (ms0_3 ⟨n, hb⟩) (hs0_3 ⟨n, hb⟩) scM0_0 (Memref.isWhole_whole _)
      (fun h => h0 ((hcond0_0 ⟨n, hb⟩).mp h)) ((hcond0_1 ⟨n, hb⟩).mpr h1)
      (xblk m c ⟨n, hb⟩) (wblk m c ⟨n, hb⟩) (gblk m c ⟨n, hb⟩) acc) i).trans ?_
    exact step_apply m c ⟨n, hb⟩ acc i
  · rw [dif_neg h1]
    refine (congrFun (acc_middle (F := Ideal) c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) (ms0_3 ⟨n, hb⟩) (hs0_3 ⟨n, hb⟩) scM0_0 (Memref.isWhole_whole _)
      (fun h => h0 ((hcond0_0 ⟨n, hb⟩).mp h)) (fun h => h1 ((hcond0_1 ⟨n, hb⟩).mp h))
      (xblk m c ⟨n, hb⟩) (wblk m c ⟨n, hb⟩) (gblk m c ⟨n, hb⟩) acc) i).trans ?_
    exact step_apply m c ⟨n, hb⟩ acc i

/-- The accumulator after point `t`: zero plus the contributions of the row tile's blocks up to `t`'s. -/
theorem acc_at (c : Dev nD) (t : Fin cfg0.N) (i : S512x128.Idx) :
    (outsAt0 m c t.val t.isLt).2 i = 0 + ∑ s ∈ Finset.range (t.val % 4 + 1), contrib m c (4 * (t.val / 4) + s) i := by
  rw [soutsAt0_0_eq]
  exact Pipeline.accAt_add_apply (ι := S512x128.Idx) (β := EReal) _ _ (fun _ => 0) (contrib m c) (4 * (t.val / 4)) 3
    (fun h i => sc_first m c _ h (by omega) _ i)
    (fun n h acc i hlo hhi => sc_later m c n h (by omega) acc i)
    (t.val % 4) (by omega) _ i

end Cert.KernelIdeal.Accumulate

end
-- ==== Proof.KernelScore.lean ====
/-
  The kernel's result array is the score of every row.

  Only the fourth feature block of a row tile emits: it writes the 512 scores of the tile, computed from the accumulator
  it has just completed. By then the accumulator's embedding columns are the row's projections and its column 32 the
  row's linear term (the features regrouped as four blocks of 1024), so row `r` of the tile gets `score (512·tile + r)`.
  The two emitting points' blocks are rows 0–511 and 512–1023 of the result: together they cover it.
-/
import proofs.«154486_j52080773431609_1_alg».proof.Proof.Accumulate

noncomputable section

open scoped BigOperators

namespace Cert.KernelIdeal.KernelScore

open Cert.KernelIdeal Cert.KernelIdeal.Gen Cert.KernelIdeal.Value Cert.KernelIdeal.Payload Cert.KernelIdeal.Pieces
open Cert.KernelIdeal.Arrays Cert.KernelIdeal.Accumulate Cert.FmSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- After the fourth block, embedding column `d` of the accumulator is the row's projection on `d`. -/
theorem acc_emb (c : Dev nD) (t : Fin cfg0.N) (h3 : t.val % 4 = 3) (r : Fin 512) (d : Fin 32) :
    (outsAt0 m c t.val t.isLt).2 (ix2 r (embCol d)) = proj (dataArr m c) (embedArr m c) (rowAt t.val r) d := by
  rw [acc_at, h3, zero_add, proj_blocks, Finset.sum_range]
  refine Finset.sum_congr rfl fun k _ => ?_
  unfold contrib
  refine Finset.sum_congr rfl fun f _ => ?_
  have e1 : rowAt (4 * (t.val / 4) + k.val) ((ix2 r (embCol d)) 0) = rowAt t.val r :=
    Fin.ext (by
      show 512 * ((4 * (t.val / 4) + k.val) / 4 % 2) + r.val = 512 * (t.val / 4 % 2) + r.val
      have := k.isLt
      omega)
  have e2 : featAt (4 * (t.val / 4) + k.val) f = blkIdx k f :=
    Fin.ext (by
      show 1024 * ((4 * (t.val / 4) + k.val) % 4) + f.val = 1024 * k.val + f.val
      have := k.isLt
      omega)
  rw [e1, e2]
  exact congrArg (dataArr m c (ix2 (rowAt t.val r) (blkIdx k f)) * ·) (aug_emb m c (blkIdx k f) d)

/-- After the fourth block, column 32 of the accumulator is the row's linear term. -/
theorem acc_bias (c : Dev nD) (t : Fin cfg0.N) (h3 : t.val % 4 = 3) (r : Fin 512) :
    (outsAt0 m c t.val t.isLt).2 (ix2 r biasCol) = lin (dataArr m c) (biasArr m c) (rowAt t.val r) := by
  rw [acc_at, h3, zero_add, lin_blocks, Finset.sum_range]
  refine Finset.sum_congr rfl fun k _ => ?_
  unfold contrib
  refine Finset.sum_congr rfl fun f _ => ?_
  have e1 : rowAt (4 * (t.val / 4) + k.val) ((ix2 r biasCol) 0) = rowAt t.val r :=
    Fin.ext (by
      show 512 * ((4 * (t.val / 4) + k.val) / 4 % 2) + r.val = 512 * (t.val / 4 % 2) + r.val
      have := k.isLt
      omega)
  have e2 : featAt (4 * (t.val / 4) + k.val) f = blkIdx k f :=
    Fin.ext (by
      show 1024 * ((4 * (t.val / 4) + k.val) % 4) + f.val = 1024 * k.val + f.val
      have := k.isLt
      omega)
  rw [e1, e2]
  exact congrArg (dataArr m c (ix2 (rowAt t.val r) (blkIdx k f)) * ·) (aug_bias m c (blkIdx k f))

/-- The fourth block emits the scores computed from the accumulator it leaves. -/
theorem out_at (c : Dev nD) (t : Fin cfg0.N) (h3 : t.val % 4 = 3) :
    (outsAt0 m c t.val t.isLt).1 = k0_pay3 (F := Ideal) (outsAt0 m c t.val t.isLt).2 (gblk m c t) := by
  have h0 : ¬t.val % 4 = 0 := by omega
  rw [outsAt0_C m c t h0 h3]
  dsimp only
  refine (out_last (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h3)
    (xblk m c t) (wblk m c t) (gblk m c t) (outsAt0 m c (t.val - 1) (Nat.lt_of_le_of_lt (Nat.sub_le _ _) t.isLt)).2).trans ?_
  exact congrArg (fun A => k0_pay3 (F := Ideal) A (gblk m c t))
    (acc_last (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h3)
      (xblk m c t) (wblk m c t) (gblk m c t) (outsAt0 m c (t.val - 1) (Nat.lt_of_le_of_lt (Nat.sub_le _ _) t.isLt)).2).symm

/-- Row `r` of what the fourth block emits is the score of row `512·tile + r`. -/
theorem score_at (c : Dev nD) (t : Fin cfg0.N) (h3 : t.val % 4 = 3) (r : Fin 512) :
    (outsAt0 m c t.val t.isLt).1 (ix1 r)
      = score (dataArr m c) (embedArr m c) (biasArr m c) (gbiasArr m c) (rowAt t.val r) := by
  rw [out_at m c t h3]
  refine (score_apply (outsAt0 m c t.val t.isLt).2 (gblk m c t) r).trans ?_
  unfold score
  rw [gblk_apply, acc_bias m c t h3]
  refine congrArg (fun z => Ideal.logistic ((gbiasArr m c (ix2 0 0) + lin (dataArr m c) (biasArr m c) (rowAt t.val r)) + z))
    (Finset.sum_congr rfl fun d _ => ?_)
  rw [acc_emb m c t h3]

/-- What an emitting point writes back is its block of the score array. -/
theorem flushed_eq (c : Dev nD) (t : Fin cfg0.N) (hf : (cfg0.win 3).flush t = true) :
    (dats m 0 c).flushed 3 t
      = ((cfg0.win 3).blk t).view.read (Elt Ideal) (G (dataArr m c) (embedArr m c) (biasArr m c) (gbiasArr m c)) := by
  have h3 : t.val % 4 = 3 := (flush0_3 t).mp hf
  obtain ⟨-, -, -, -, -, -, e6⟩ := idx_facts t
  have hN : cfg0.N = 8 := N_0
  have ht := t.isLt
  rw [flushed3]
  funext y
  obtain ⟨r, rfl⟩ : ∃ r : Fin 512, y = ix1 r := ⟨y 0, eq_ix1 y⟩
  show (outsAt0 m c t.val t.isLt).1 (ix1 r)
    = score (dataArr m c) (embedArr m c) (biasArr m c) (gbiasArr m c) ((((cfg0.win 3).blk t).view.emb (ix1 r)) 0)
  rw [score_at m c t h3]
  refine congrArg (score (dataArr m c) (embedArr m c) (biasArr m c) (gbiasArr m c)) (Fin.ext ?_)
  show 512 * (t.val / 4 % 2) + r.val = win0_3.index t (0 : Fin 1) * 512 + 1 * r.val
  omega

/-- A row of the result is in point `t`'s block iff it is one of the 512 rows of `t`'s tile. -/
theorem mem_blk (t : Fin cfg0.N) (i : S1024.Idx) :
    i ∈ ((cfg0.win 3).blk t).view.set ↔ ∀ a : Fin 1, win0_3.index t a * S512.size a ≤ (i a).val ∧ (i a).val < win0_3.index t a * S512.size a + S512.size a := by
  show i ∈ ((View.whole main_v2).slice (win0_3.rect t)).set ↔ _
  rw [View.set_slice_whole, Rect.mem_set_unit]
  exact Iff.rfl

/-- Every row of the result is in the block of its tile's emitting point. -/
theorem cover (i : S1024.Idx) : ∃ t : Fin cfg0.N, (cfg0.win 3).flush t = true ∧ i ∈ ((cfg0.win 3).blk t).view.set := by
  have hN : cfg0.N = 8 := N_0
  have hi : (i 0).val < 1024 := (i 0).isLt
  refine ⟨⟨4 * ((i 0).val / 512) + 3, by omega⟩, (flush0_3 _).mpr (by show (4 * ((i 0).val / 512) + 3) % 4 = 3; omega), ?_⟩
  obtain ⟨-, -, -, -, -, -, e6⟩ := idx_facts ⟨4 * ((i 0).val / 512) + 3, by omega⟩
  rw [mem_blk]
  intro a
  match a with
  | ⟨0, _⟩ =>
    show win0_3.index _ (0 : Fin 1) * 512 ≤ (i 0).val ∧ (i 0).val < win0_3.index _ (0 : Fin 1) * 512 + 512
    rw [e6]
    show (4 * ((i 0).val / 512) + 3) / 4 * 512 ≤ (i 0).val ∧ (i 0).val < (4 * ((i 0).val / 512) + 3) / 4 * 512 + 512
    omega

/-- The result array after the run is the score of every row. -/
theorem final (c : Dev nD) :
    (dats m 0 c).arrAt 3 cfg0.N = G (dataArr m c) (embedArr m c) (biasArr m c) (gbiasArr m c) :=
  (dats m 0 c).arrAt_eq_of_cover 3 (G (dataArr m c) (embedArr m c) (biasArr m c) (gbiasArr m c))
    (fun t hf => flushed_eq m c t hf) cover

/-- The kernel's run: every weakly fair execution ends with the result array at the scores and the arguments unchanged. -/
theorem run : θ_run defs (onTc (τ := τ) (main (F := Ideal))) ⟨m, fun _ => 0, ρ⟩ fun r => ∀ c : Dev nD,
      r.2.mem ((c : Thread nD τ).loc main_v2) = G (dataArr m c) (embedArr m c) (biasArr m c) (gbiasArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KernelScore

end
-- ==== Proof.lean ====
/-
  A factorization-machine score, computed by a tiled kernel and by a plain reference, is one function of the inputs.

  For a batch row `b` of the data `x` [1024, 4096], with the embedding `E` [4096, 32], the bias column `β` [4096, 1] and
  the global bias `g` [1, 1]:

      score b = σ ( (g + ∑_f x[b,f]·β[f]) + ∑_{d<32} (∑_f x[b,f]·E[f,d])² ),     σ t = 1 / (1 + e^(-t)).

  The reference forms the products on whole arrays, sums the 4096 features from zero, and spells `σ` as negate,
  exponential, add one, divide into one. The kernel multiplies each [512, 1024] block of `x` into the matching
  [1024, 128] block of `[E | β | 0]`, accumulating the four feature blocks of a row tile from a zeroed accumulator; after
  the fourth it reads the projections from columns 0–31 and the linear term from column 32, and applies the logistic
  function. Over the extended reals a change of float format is the identity, the logistic function IS that
  composition of negate, exponential, add and divide, and a sum over 4096 features is the sum over four blocks of
  1024 of the sums inside each block (addition is commutative and associative: no finiteness is used). So both
  programs end with the result array at `score` of every row.

  The three frames are the generated ones (the reference's is its generated run with the result dropped); the ideal pass
  rewrote nothing, so `preserves` is `True`.
-/
import proofs.«154486_j52080773431609_1_alg».proof.Defs
import proofs.«154486_j52080773431609_1_alg».proof.Proof.Gen.Kernel
import proofs.«154486_j52080773431609_1_alg».proof.Proof.Gen.Kernel.Skeleton
import proofs.«154486_j52080773431609_1_alg».proof.Proof.Gen.Kernel.Launch
import proofs.«154486_j52080773431609_1_alg».proof.Proof.Gen.Kernel.Points
import proofs.«154486_j52080773431609_1_alg».proof.Proof.Gen.Kernel.Frame
import proofs.«154486_j52080773431609_1_alg».proof.Proof.Gen.KernelIdeal
import proofs.«154486_j52080773431609_1_alg».proof.Proof.Gen.KernelIdeal.Skeleton
import proofs.«154486_j52080773431609_1_alg».proof.Proof.Gen.KernelIdeal.Launch
import proofs.«154486_j52080773431609_1_alg».proof.Proof.Gen.KernelIdeal.Points
import proofs.«154486_j52080773431609_1_alg».proof.Proof.Gen.KernelIdeal.Frame
import proofs.«154486_j52080773431609_1_alg».proof.Proof.Gen.ReferenceIdeal
import proofs.«154486_j52080773431609_1_alg».proof.Proof.Gen.Pre_finite_inputs
import proofs.«154486_j52080773431609_1_alg».proof.Proof.Gen.KernelIdeal.Value
import proofs.«154486_j52080773431609_1_alg».proof.Proof.Gen.ReferenceIdeal.Run
import proofs.«154486_j52080773431609_1_alg».proof.Proof.Gen.ReferenceIdeal.Read
import proofs.«154486_j52080773431609_1_alg».proof.Proof.RefScore
import proofs.«154486_j52080773431609_1_alg».proof.Proof.KernelScore
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the result array at the score of every row. -/
theorem algebraic : Cert.algebraic_KernelIdeal_ReferenceIdeal := by
  intro m ρ m' ρ' _ hagree
  refine ⟨_, Cert.KernelIdeal.KernelScore.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RefScore.ref_is_score, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
